-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S1x1, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S_, .f32⟩
  | .hbm, ⟨3, _⟩ => ⟨S16777216, .f32⟩
  | .hbm, ⟨4, _⟩ => ⟨S16777216, .i1⟩
  | .hbm, ⟨5, _⟩ => ⟨S_, .f32⟩
  | .hbm, ⟨6, _⟩ => ⟨S16777216, .f32⟩
  | .hbm, ⟨7, _⟩ => ⟨S16777216, .i1⟩
  | .hbm, ⟨8, _⟩ => ⟨S16777216, .i1⟩
  | .hbm, ⟨9, _⟩ => ⟨S_, .f32⟩
  | .hbm, ⟨10, _⟩ => ⟨S_, .f32⟩
  | .hbm, ⟨11, _⟩ => ⟨S16777216, .f32⟩
  | .hbm, ⟨12, _⟩ => ⟨S16777216, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What the loop body leaves behind at one grid point, case by case, as plain terms.

  The body keeps a one-entry running total in a scratch cell.  At the first point it first stores zero there; at every
  point it adds the point's block sum to the cell; at the last point it also stores the cell times a constant into the
  one-entry output block.  Reading back what each case's stores wrote:

    first point  : the cell ends at  step x y zero          (zero the stored zero block)
    middle points: the cell ends at  step x y s             (s what the point before left)
    last point   : the cell ends at  step x y s,  and the output block at  scale (step x y s)

  where  step = the body's "add this block's sum" term and  scale = its "times a constant" term, each a pure function of
  the two input blocks x, y and the cell's previous contents.  Stated for any float instance.
-/
import proofs.«103839_j15668040696555_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- MIDDLE POINTS. The cell, holding `s`, ends at the body's "add this block's sum" term of the two input blocks and `s`:
    the one store into the cell, whose three loads read whole buffers. -/
theorem cell_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8192x128 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- FIRST POINT. The body stores the zero block into the cell, reads it back, and adds the block's sum: the cell ends at
    the same term over the stored zero block. -/
theorem cell_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8192x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread,
    View.ld_unit_zero (S := S8192x128) hz]

/-- LAST POINT, the cell: as at a middle point. -/
theorem cell_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- LAST POINT, the output block: the body reads the cell back after updating it and stores it times a constant. -/
theorem out_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readCov_unit_zero (S := S1x1) _ hz, View.readAt_eq_ld, h1.read_unread, h2.read_unread, h4.read_unread,
    View.ld_unit_zero (S := S8192x128) hz, View.ld_unit_zero (S := S1x1) hz]

end Cert.KernelIdeal.Pieces

end
-- ==== Proof.Spec.lean ====
/-
  The quantity both programs compute, as one function of the two argument vectors over the extended reals.

  For vectors `p` (the predictions) and `t` (the targets) of 16 777 216 = 2²⁴ entries, an entry contributes its squared
  error times a weight:  `term p t = ((p − t)·(p − t)) · w(p)`,  where `w(p) = 2` when `p < 20` or `p > 80` and
  `w(p) = 1` otherwise.  The loss is the mean of the contributions.  One program multiplies the sum by the float 2⁻²⁴, the
  other divides `0 + sum` by the float 2²⁴; over the extended reals these agree for EVERY value of the sum, the
  infinities included, because division by a nonzero real is multiplication by its reciprocal.
-/
import Idealize.ShloMosaic.PureOps.Ideal
import Idealize.ShloMosaic.PureOps.Ideal.Laws

noncomputable section

namespace Cert.PrioriLoss

open Idealize.ShloMosaic
open scoped BigOperators

/-- The weight of an entry with prediction `p`: the float `2` when `p < 20` or `p > 80` (the two comparisons' bits
    joined by "or"), the float `1` otherwise. The four floats are kept as the words the programs spell. -/
def weight (p : EReal) : EReal :=
  Scalar.select
    (IntOp.ori (Ideal.cmp .olt p (Ideal.ofBits .f32 0x41A00000#32)) (Ideal.cmp .ogt p (Ideal.ofBits .f32 0x42A00000#32)))
    (Ideal.ofBits .f32 0x40000000#32) (Ideal.ofBits .f32 0x3F800000#32)

/-- One entry's contribution: the squared error times the weight. -/
def term (p t : EReal) : EReal := ((p - t) * (p - t)) * weight p

/-- The sum of all contributions. -/
def total (p t : Fin 16777216 → EReal) : EReal := ∑ k, term (p k) (t k)

/-- The loss: the sum of all contributions times the float `2⁻²⁴`. -/
def loss (p t : Fin 16777216 → EReal) : EReal := total p t * Ideal.ofBits .f32 0x33800000#32

/-- The word `0x4B800000` denotes `2²⁴ = 16777216`. -/
theorem ofBits_two_pow_24 : Ideal.ofBits .f32 0x4B800000#32 = ((16777216 : ℝ) : EReal) := by
  simp [Ideal.ofBits, Ideal.ieee, -EReal.coe_mul]; norm_num

/-- The word `0x33800000` denotes `2⁻²⁴ = 1/16777216`. -/
theorem ofBits_two_pow_neg_24 : Ideal.ofBits .f32 0x33800000#32 = ((1 / 16777216 : ℝ) : EReal) := by
  simp [Ideal.ofBits, Ideal.ieee, -EReal.coe_mul]; norm_num

/-- Dividing `0 + s` by the float `2²⁴` is multiplying `s` by the float `2⁻²⁴`, for every extended real `s`. -/
theorem div_eq_mul (s : EReal) :
    Ideal.div (Ideal.ofBits .f32 0x00000000#32 + s) (Ideal.ofBits .f32 0x4B800000#32)
      = s * Ideal.ofBits .f32 0x33800000#32 := by
  rw [Ideal.ofBits_zero_f32, zero_add, ofBits_two_pow_24, ofBits_two_pow_neg_24,
    Ideal.div_coe (by norm_num : (16777216 : ℝ) ≠ 0)]

end Cert.PrioriLoss

end
-- ==== Proof.Body.lean ====
/-
  The loop body's arithmetic over the extended reals, read at its one output entry.

  The body's "add this block's sum" term takes the two 8192 × 128 input blocks `x`, `y` and the one-entry running total
  `s`.  It forms, entry by entry, the squared error times the weight; sums each row over its 128 lanes; lays the 8192 row
  sums out as a column and sums that; and adds the result to `s`.  So at its one entry it is
  `s + Σ_{r < 8192} Σ_{l < 128} term (x r l) (y r l)`.  The "times a constant" term multiplies its one entry by the float 2⁻²⁴.
-/
import proofs.«103839_j15668040696555_1_alg».proof.Proof.Gen.KernelIdeal.Skeleton
import proofs.«103839_j15668040696555_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen Cert.PrioriLoss

/-- The row-sum vector laid out as a column: entry `(r, 0)` of the column is entry `r` of the vector. -/
theorem column_apply (u : FVec Ideal S8192 .f32) (hc : S8192.ShapeCasts S8192x1) (r : Fin 8192) (z : Fin 1) :
    shapeCast S8192x1 u hc (ix2 r z) = u (ix1 r) :=
  shapeCast_apply u hc (ix2 r z) (ix1 r) (by
    rw [Shape.rowMajor_val_one, Shape.rowMajor_val_two]
    show r.val = r.val * 1 + z.val
    have := z.isLt; omega)

/-- A one-entry vector laid out as a 1 × 1 block: the same entry. -/
theorem single_apply (u : FVec Ideal S1 .f32) (hc : S1.ShapeCasts S1x1) (j : S1x1.Idx) :
    shapeCast S1x1 u hc j = u (ix1 (0 : Fin 1)) :=
  shapeCast_apply u hc j (ix1 (0 : Fin 1)) (by
    rw [Shape.rowMajor_val_one, Shape.rowMajor_val_two]
    show (0 : Nat) = (j 0).val * 1 + (j 1).val
    have := idx2_lt0 j; have := idx2_lt1 j; omega)

/-- The sum of a block's row `r` over its 128 lanes. -/
theorem laneSum_apply (v : FVec Ideal S8192x128 .f32) (h : S8192x128.Reduces [1] S8192)
    (hφ : FKind.Formats .f32) (hacc : (0x00000000#32 : BitVec 32) = FKind.add.neutral .f32 hφ) (r : Fin 8192) :
    multiReduction .add [1] S8192 v 0x00000000#32 h hφ hacc (ix1 r) = ∑ l : Fin 128, v (ix2 r l) := by
  refine (Ideal.multiReduction_add_single v 0x00000000#32 h hφ hacc (ix1 r)).trans ?_
  refine Finset.sum_congr rfl fun l _ => congrArg v (funext fun a => Fin.ext ?_)
  match a with
  | ⟨0, _⟩ => rfl
  | ⟨1, _⟩ => rfl

/-- The sum of a column over its 8192 rows. -/
theorem rowSum_apply (w : FVec Ideal S8192x1 .f32) (h : S8192x1.Reduces [0] S1)
    (hφ : FKind.Formats .f32) (hacc : (0x00000000#32 : BitVec 32) = FKind.add.neutral .f32 hφ) :
    multiReduction .add [0] S1 w 0x00000000#32 h hφ hacc (ix1 (0 : Fin 1)) = ∑ r : Fin 8192, w (ix2 r (0 : Fin 1)) := by
  refine (Ideal.multiReduction_add_single w 0x00000000#32 h hφ hacc (ix1 (0 : Fin 1))).trans ?_
  refine Finset.sum_congr rfl fun r _ => congrArg w (funext fun a => Fin.ext ?_)
  match a with
  | ⟨0, _⟩ => rfl
  | ⟨1, _⟩ => rfl

/-- THE STEP TERM at its one entry: the running total plus the block's sum of contributions. -/
theorem step_apply (x y : Vec Ideal S8192x128 .f32) (s : Vec Ideal S1x1 .f32) (j : S1x1.Idx) :
    k0_pay2 (F := Ideal) x y s j = s j + ∑ r : Fin 8192, ∑ l : Fin 128, term (x (ix2 r l)) (y (ix2 r l)) := by
  unfold k0_pay2
  simp only [shapeCast_self]
  show s j + shapeCast S1x1 _ shapeCasts_S1_S1x1 j = _
  refine congrArg (s j + ·) ((single_apply _ _ j).trans ((rowSum_apply _ _ _ _).trans
    (Finset.sum_congr rfl fun r _ => (column_apply _ _ r 0).trans ((laneSum_apply _ _ _ _ r).trans
      (Finset.sum_congr rfl fun l _ => rfl)))))

/-- THE SCALE TERM at its one entry: the entry times the float `2⁻²⁴`. -/
theorem scale_apply (s : Vec Ideal S1x1 .f32) (j : S1x1.Idx) :
    k0_pay3 (F := Ideal) s j = s j * Ideal.ofBits .f32 0x33800000#32 := rfl

/-- THE ZERO BLOCK the first point stores: its entry is the extended real `0`. -/
theorem zero_apply (j : S1x1.Idx) : k0_pay1 (F := Ideal) j = 0 := by
  unfold k0_pay1
  simp only [shapeCast_self]
  exact Ideal.ofBits_zero_f32

end Cert.KernelIdeal.Body

end
-- ==== Proof.Blocks.lean ====
/-
  The input blocks as entries of the flat argument vectors.

  Each argument is a flat vector of 2²⁴ entries which the program first views as 131072 rows of 128 lanes; grid point `t`
  (of 16) reads the 8192 rows `8192·t, …, 8192·t + 8191` of that view.  So entry `(r, l)` of point `t`'s block is entry
  `1048576·t + 128·r + l` of the flat vector: the same row-major position.
-/
import proofs.«103839_j15668040696555_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- Entry `(r, l)` of block `t` lies inside the flat vector: `1048576·t + 128·r + l < 2²⁴` for `t < 16`. -/
theorem flat_lt {t r l : ℕ} (ht : t < 16) (hr : r < 8192) (hl : l < 128) : 1048576 * t + (128 * r + l) < 16777216 := by
  omega

/-- Window 0's array as the region finds it: the host's 131072 × 128 view of argument 0. -/
theorem V_main_v0 (c : Dev nD) :
    V m c main_v0 = shapeCast S131072x128 (m ((c : Thread nD τ).loc main_arg0)) shapeCasts_S16777216_S131072x128 := by
  show StableHlo.after hostOps0 (fun b => m (c, b)) (Proc.devRef .tc main_v0) = _
  after_results; rfl

/-- Window 0's block index at point `t` is `(t, 0)`: decided over the grid. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 0's block at point `t`, at its literal shape. -/
abbrev blk0 (c : Dev nD) (t : Fin cfg0.N) : Vec F S8192x128 .f32 := iblk m c 0 t

/-- Entry `(r, l)` of window 0's block at point `t` is entry `1048576·t + 128·r + l` of argument 0. -/
theorem blk0_apply (c : Dev nD) (t : Fin cfg0.N) (r : Fin 8192) (l : Fin 128) :
    blk0 m c t (ix2 r l)
      = m ((c : Thread nD τ).loc main_arg0)
          (ix1 ⟨1048576 * t.val + (128 * r.val + l.val), flat_lt (lt_of_lt_of_eq t.isLt N_0) r.isLt l.isLt⟩) := by
  unfold blk0 iblk
  rw [View.read_apply]
  show V m c main_v0 _ = _
  rw [V_main_v0]
  refine shapeCast_apply _ _ _ _ ?_
  show (S16777216.rowMajor (ix1 ⟨1048576 * t.val + (128 * r.val + l.val), _⟩)).val
    = (S131072x128.rowMajor (((cfg0.win 0).blk t).view.emb (ix2 r l))).val
  rw [Shape.rowMajor_val_one, Shape.rowMajor_val_two]
  show 1048576 * t.val + (128 * r.val + l.val)
    = (win0_0.index t 0 * 8192 + 1 * r.val) * 128 + (win0_0.index t 1 * 128 + 1 * l.val)
  rw [(idx0 t).1, (idx0 t).2]
  omega

/-- Window 1's array as the region finds it: the host's 131072 × 128 view of argument 1. -/
theorem V_main_v1 (c : Dev nD) :
    V m c main_v1 = shapeCast S131072x128 (m ((c : Thread nD τ).loc main_arg1)) shapeCasts_S16777216_S131072x128 := by
  show StableHlo.after hostOps0 (fun b => m (c, b)) (Proc.devRef .tc main_v1) = _
  after_results; rfl

/-- Window 1's block index at point `t` is `(t, 0)`: decided over the grid. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Window 1's block at point `t`, at its literal shape. -/
abbrev blk1 (c : Dev nD) (t : Fin cfg0.N) : Vec F S8192x128 .f32 := iblk m c 1 t

/-- Entry `(r, l)` of window 1's block at point `t` is entry `1048576·t + 128·r + l` of argument 1. -/
theorem blk1_apply (c : Dev nD) (t : Fin cfg0.N) (r : Fin 8192) (l : Fin 128) :
    blk1 m c t (ix2 r l)
      = m ((c : Thread nD τ).loc main_arg1)
          (ix1 ⟨1048576 * t.val + (128 * r.val + l.val), flat_lt (lt_of_lt_of_eq t.isLt N_0) r.isLt l.isLt⟩) := by
  unfold blk1 iblk
  rw [View.read_apply]
  show V m c main_v1 _ = _
  rw [V_main_v1]
  refine shapeCast_apply _ _ _ _ ?_
  show (S16777216.rowMajor (ix1 ⟨1048576 * t.val + (128 * r.val + l.val), _⟩)).val
    = (S131072x128.rowMajor (((cfg0.win 1).blk t).view.emb (ix2 r l))).val
  rw [Shape.rowMajor_val_one, Shape.rowMajor_val_two]
  show 1048576 * t.val + (128 * r.val + l.val)
    = (win0_1.index t 0 * 8192 + 1 * r.val) * 128 + (win0_1.index t 1 * 128 + 1 * l.val)
  rw [(idx1 t).1, (idx1 t).2]
  omega

end Cert.KernelIdeal.Blocks

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.Chain.lean ====
/-
  The running total across the sixteen grid points, and what the last point writes out.

  Write `f k = term (p k) (q k)` for the contribution of flat position `k` (`p`, `q` the two argument vectors) and
  `A n = Σ_{k < 1048576·n} f k` for the sum over the first `n` blocks of 1048576 positions: `A 0 = 0`,
  `A (n+1) = A n + (block n's sum)`, `A 16 = Σ_k f k`.  Point `t` adds to the scratch cell the double sum over its
  8192 × 128 block, which is block `t`'s sum (the block's entry `(r, l)` is flat position `1048576·t + 128·r + l`).  So,
  by induction on the point, the cell holds `A (n+1)` after point `n`; and the last point writes
  `A 16 · 2⁻²⁴ = loss p q` into the output block.
-/
import proofs.«103839_j15668040696555_1_alg».proof.Proof.Pieces
import proofs.«103839_j15668040696555_1_alg».proof.Proof.Body
import proofs.«103839_j15668040696555_1_alg».proof.Proof.Blocks
import proofs.«103839_j15668040696555_1_alg».proof.Proof.LibBlockSum
import proofs.«103839_j15668040696555_1_alg».proof.Proof.Spec

noncomputable section

open Idealize.ShloMosaic Idealize.ShloMosaic.TcCoe Idealize.SL.Sem Idealize.ShloMosaic.ValueIdx
open scoped BigOperators

namespace Cert.KernelIdeal.Chain

open Cert.KernelIdeal Cert.KernelIdeal.Gen Cert.PrioriLoss Cert.LibBlockSum Cert.KernelIdeal.Blocks

variable (m : (ℓ : Loc nD τ sig) → Buf (Elt Ideal) ℓ)

/-- Argument 0 (the predictions) by flat position. -/
def pred (c : Dev nD) (k : Fin 16777216) : EReal := m ((c : Thread nD τ).loc main_arg0) (ix1 k)
/-- Argument 1 (the targets) by flat position. -/
def targ (c : Dev nD) (k : Fin 16777216) : EReal := m ((c : Thread nD τ).loc main_arg1) (ix1 k)
/-- The contribution of flat position `k`. -/
def contrib (c : Dev nD) (k : Fin 16777216) : EReal := term (pred m c k) (targ m c k)

/-- Sixteen blocks of 1048576 positions. -/
theorem points : 16 * 1048576 = 16777216 := by norm_num
/-- A block is 8192 rows of 128 lanes. -/
theorem lanes : 8192 * 128 = 1048576 := by norm_num

/-- The sum of the contributions of the first `n` blocks. -/
def acc (c : Dev nD) (n : ℕ) : EReal := blockAcc points (contrib m c) n

/-- Point `t`'s double sum over its block is the sum of the contributions of block `t`'s positions. -/
theorem block_sum (c : Dev nD) (t : Fin cfg0.N) :
    ∑ r : Fin 8192, ∑ l : Fin 128, term (blk0 m c t (ix2 r l)) (blk1 m c t (ix2 r l))
      = ∑ q : Fin 1048576, contrib m c ⟨1048576 * t.val + q.val, block_lt points (lt_of_lt_of_eq t.isLt N_0) q.isLt⟩ := by
  rw [sum_blocks' lanes (fun q : Fin 1048576 =>
    contrib m c ⟨1048576 * t.val + q.val, block_lt points (lt_of_lt_of_eq t.isLt N_0) q.isLt⟩)]
  refine Finset.sum_congr rfl fun r _ => Finset.sum_congr rfl fun l _ => ?_
  rw [blk0_apply, blk1_apply]
  rfl

/-- One more block: the total after point `t` is the total before it plus the point's double sum. -/
theorem acc_succ (c : Dev nD) (t : Fin cfg0.N) :
    acc m c (t.val + 1)
      = acc m c t.val + ∑ r : Fin 8192, ∑ l : Fin 128, term (blk0 m c t (ix2 r l)) (blk1 m c t (ix2 r l)) := by
  rw [block_sum]
  exact blockAcc_succ' points (contrib m c) (lt_of_lt_of_eq t.isLt N_0)

/-- After all sixteen points the total is the sum of all contributions. -/
theorem acc_last (c : Dev nD) : acc m c 16 = total (pred m c) (targ m c) :=
  blockAcc_last points (contrib m c)

/-- THE CELL after point `n` holds the sum of the contributions of blocks `0, …, n`: by induction on the point. -/
theorem cell_eq (c : Dev nD) : ∀ (n : ℕ) (h : n < cfg0.N) (j : S1x1.Idx), (outsAt0 m c n h).2 j = acc m c (n + 1) := by
  intro n
  induction n with
  | zero =>
    intro h j
    have h0 : (⟨0, h⟩ : Fin cfg0.N).val % 16 = 0 := rfl
    have h1 : ¬(⟨0, h⟩ : Fin cfg0.N).val % 16 = 15 := by show ¬(0 : ℕ) % 16 = 15; decide
    show (outsAt0 m c (⟨0, h⟩ : Fin cfg0.N).val (⟨0, h⟩ : Fin cfg0.N).isLt).2 j = _
    rw [outsAt0_A m c (⟨0, h⟩ : Fin cfg0.N) h0 h1]
    dsimp only
    refine (congrFun (Pieces.cell_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) scM0_0 (Memref.isWhole_whole _)
      ((hcond0_0 (⟨0, h⟩ : Fin cfg0.N)).mpr h0) (fun h' => h1 ((hcond0_1 (⟨0, h⟩ : Fin cfg0.N)).mp h')) (iblk m c 0 (⟨0, h⟩ : Fin cfg0.N)) (iblk m c 1 (⟨0, h⟩ : Fin cfg0.N))) j).trans ?_
    refine (Body.step_apply (blk0 m c (⟨0, h⟩ : Fin cfg0.N)) (blk1 m c (⟨0, h⟩ : Fin cfg0.N)) (k0_pay1 (F := Ideal)) j).trans ?_
    rw [Body.zero_apply]
    exact (acc_succ m c (⟨0, h⟩ : Fin cfg0.N)).symm
  | succ n ih =>
    intro h j
    have hN : n + 1 < 16 := lt_of_lt_of_eq h N_0
    have h0 : ¬(⟨n + 1, h⟩ : Fin cfg0.N).val % 16 = 0 := by show ¬(n + 1) % 16 = 0; omega
    have hprev : (outsAt0 m c ((⟨n + 1, h⟩ : Fin cfg0.N).val - 1) (Nat.lt_of_le_of_lt (Nat.sub_le _ _) (⟨n + 1, h⟩ : Fin cfg0.N).isLt)).2 j
        + ∑ r : Fin 8192, ∑ l : Fin 128, term (blk0 m c (⟨n + 1, h⟩ : Fin cfg0.N) (ix2 r l)) (blk1 m c (⟨n + 1, h⟩ : Fin cfg0.N) (ix2 r l))
        = acc m c (n + 1 + 1) := by
      refine Eq.trans ?_ (acc_succ m c (⟨n + 1, h⟩ : Fin cfg0.N)).symm
      exact congrArg (· + _) (ih (Nat.lt_of_succ_lt h) j)
    show (outsAt0 m c (⟨n + 1, h⟩ : Fin cfg0.N).val (⟨n + 1, h⟩ : Fin cfg0.N).isLt).2 j = _
    by_cases h1 : (⟨n + 1, h⟩ : Fin cfg0.N).val % 16 = 15
    · rw [outsAt0_C m c (⟨n + 1, h⟩ : Fin cfg0.N) h0 h1]
      dsimp only
      refine (congrFun (Pieces.cell_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _)
        (fun h' => h0 ((hcond0_0 (⟨n + 1, h⟩ : Fin cfg0.N)).mp h')) ((hcond0_1 (⟨n + 1, h⟩ : Fin cfg0.N)).mpr h1) (iblk m c 0 (⟨n + 1, h⟩ : Fin cfg0.N)) (iblk m c 1 (⟨n + 1, h⟩ : Fin cfg0.N))
        (outsAt0 m c ((⟨n + 1, h⟩ : Fin cfg0.N).val - 1) (Nat.lt_of_le_of_lt (Nat.sub_le _ _) (⟨n + 1, h⟩ : Fin cfg0.N).isLt)).2) j).trans ?_
      exact (Body.step_apply (blk0 m c (⟨n + 1, h⟩ : Fin cfg0.N)) (blk1 m c (⟨n + 1, h⟩ : Fin cfg0.N)) _ j).trans hprev
    · rw [outsAt0_B m c (⟨n + 1, h⟩ : Fin cfg0.N) h0 h1]
      dsimp only
      refine (congrFun (Pieces.cell_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _)
        (fun h' => h0 ((hcond0_0 (⟨n + 1, h⟩ : Fin cfg0.N)).mp h')) (fun h' => h1 ((hcond0_1 (⟨n + 1, h⟩ : Fin cfg0.N)).mp h')) (iblk m c 0 (⟨n + 1, h⟩ : Fin cfg0.N)) (iblk m c 1 (⟨n + 1, h⟩ : Fin cfg0.N))
        (outsAt0 m c ((⟨n + 1, h⟩ : Fin cfg0.N).val - 1) (Nat.lt_of_le_of_lt (Nat.sub_le _ _) (⟨n + 1, h⟩ : Fin cfg0.N).isLt)).2) j).trans ?_
      exact (Body.step_apply (blk0 m c (⟨n + 1, h⟩ : Fin cfg0.N)) (blk1 m c (⟨n + 1, h⟩ : Fin cfg0.N)) _ j).trans hprev

/-- THE OUTPUT BLOCK after the last point holds the loss. -/
theorem out_eq (c : Dev nD) (h : 15 < cfg0.N) (j : S1x1.Idx) :
    (outsAt0 m c 15 h).1 j = loss (pred m c) (targ m c) := by
  have h0 : ¬(⟨15, h⟩ : Fin cfg0.N).val % 16 = 0 := by show ¬(15 : ℕ) % 16 = 0; decide
  have h1 : (⟨15, h⟩ : Fin cfg0.N).val % 16 = 15 := rfl
  show (outsAt0 m c (⟨15, h⟩ : Fin cfg0.N).val (⟨15, h⟩ : Fin cfg0.N).isLt).1 j = _
  rw [outsAt0_C m c (⟨15, h⟩ : Fin cfg0.N) h0 h1]
  dsimp only
  refine (congrFun (Pieces.out_C (F := Ideal) c (grid0.coords (⟨15, h⟩ : Fin cfg0.N)) (ms0_0 (⟨15, h⟩ : Fin cfg0.N)) (hs0_0 (⟨15, h⟩ : Fin cfg0.N)) (ms0_1 (⟨15, h⟩ : Fin cfg0.N)) (hs0_1 (⟨15, h⟩ : Fin cfg0.N)) (ms0_2 (⟨15, h⟩ : Fin cfg0.N)) (hs0_2 (⟨15, h⟩ : Fin cfg0.N)) scM0_0 (Memref.isWhole_whole _)
    (fun h' => h0 ((hcond0_0 (⟨15, h⟩ : Fin cfg0.N)).mp h')) ((hcond0_1 (⟨15, h⟩ : Fin cfg0.N)).mpr h1) (iblk m c 0 (⟨15, h⟩ : Fin cfg0.N)) (iblk m c 1 (⟨15, h⟩ : Fin cfg0.N))
    (outsAt0 m c ((⟨15, h⟩ : Fin cfg0.N).val - 1) (Nat.lt_of_le_of_lt (Nat.sub_le _ _) (⟨15, h⟩ : Fin cfg0.N).isLt)).2) j).trans ?_
  refine (Body.scale_apply _ j).trans ?_
  refine congrArg (· * Ideal.ofBits .f32 0x33800000#32) ?_
  refine (Body.step_apply (blk0 m c (⟨15, h⟩ : Fin cfg0.N)) (blk1 m c (⟨15, h⟩ : Fin cfg0.N)) _ j).trans ?_
  refine Eq.trans ?_ ((acc_succ m c (⟨15, h⟩ : Fin cfg0.N)).symm.trans (acc_last m c))
  exact congrArg (· + _) (cell_eq m c 14 (Nat.lt_of_succ_lt h) j)

end Cert.KernelIdeal.Chain

end
-- ==== Proof.KernelRun.lean ====
/-
  The kernel program's run, read: its result is the loss of its two arguments.

  The output window's one-entry block never moves and is written back once, after the last grid point, when the staging
  buffer holds the loss; that block is the whole 1 × 1 result array.  The program then views the array as a scalar, which
  reads the same entry.  The two arguments are only read.
-/
import proofs.«103839_j15668040696555_1_alg».proof.Proof.Chain
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.PrioriLoss Cert.KernelIdeal.Chain

variable (m : (ℓ : Loc nD τ sig) → Buf (Elt Ideal) ℓ) (ρ : Dev nD → PrngReg)

/-- The 1 × 1 result array holding the value `L` at its one entry. -/
abbrev outArr (c : Dev nD) (L : EReal) : Buf (Elt Ideal) ((c : Thread nD τ).loc main_v2) := fun _ => L

/-- The one write-back, after the last point, writes what the staging buffer then holds: if that is `L` at every entry,
    it is the block of the constant array `L`. (Stated for an arbitrary value `L`; the loss is put in at the end.) -/
theorem flushed_eq (c : Dev nD) (L : EReal) (hL : ∀ (h : 15 < cfg0.N) (j : S1x1.Idx), (outsAt0 m c 15 h).1 j = L)
    (t : Fin cfg0.N) (hf : (cfg0.win 2).flush t = true) :
    (dats m 0 c).flushed 2 t = ((cfg0.win 2).blk t).view.read (Elt Ideal) (outArr c L) := by
  have hN : cfg0.N = 16 := N_0
  have h15 : t.val = 15 := by have := (flush0_2 t).mp hf; have := t.isLt; omega
  obtain ⟨n, hn⟩ := t
  obtain rfl : n = 15 := h15
  funext y
  rw [View.read_apply]
  show (cfg0.win 2).cut (grid0.coords ⟨15, hn⟩) ((dats m 0 c).after 2 ⟨15, hn⟩) y = L
  rw [after0_2]
  exact hL hn _

/-- That block is the whole 1 × 1 array, so the result array ends holding `L`. -/
theorem final_out (c : Dev nD) (L : EReal) (hL : ∀ (h : 15 < cfg0.N) (j : S1x1.Idx), (outsAt0 m c 15 h).1 j = L) :
    (dats m 0 c).arrAt 2 cfg0.N = outArr c L :=
  (dats m 0 c).arrAt_eq_of_cover 2 (outArr c L) (flushed_eq m c L hL) fun i =>
    ⟨t0_15, (flush0_2 t0_15).mpr rfl, by
      show i ∈ ((View.whole main_v2).slice (win0_2.rect t0_15)).set
      rw [View.set_slice_whole, Rect.mem_set_unit]
      intro a
      have hlo : ∀ a : Fin 2, win0_2.index t0_15 a * win0_2.size a = 0 := by decide +kernel
      have hsz : ∀ a : Fin 2, win0_2.xsize (grid0.coords t0_15) a = 1 := by decide +kernel
      have hone : ∀ a : Fin 2, S1x1.size a = 1 := by decide
      have hi : (i a).val < S1x1.size a := (i a).isLt
      rw [hlo a, hsz a]
      rw [hone a] at hi
      omega⟩

/-- The scalar view the program takes of the result array reads the same entry: the program's result is `L`. -/
theorem tail_eq (c : Dev nD) (L : EReal) (hL : ∀ (h : 15 < cfg0.N) (j : S1x1.Idx), (outsAt0 m c 15 h).1 j = L) :
    Pipeline.afterTail₀ cfgs (dats m) 0 (V0 m) [hostOps1] c main_v3 = fun _ => L := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.tc.devRef main_v2) = outArr c L :=
    (Pipeline.withArrays_arr spec0 launch0.win.arr_inj c _ _ 2).trans (final_out m c L hL)
  rw [hw]
  funext i
  show shapeCast S_ (outArr c L) shapeCasts_S1x1_S_ i = L
  unfold shapeCast
  rfl

/-- THE RUN, READ: every weakly fair execution of the program terminates with its result at the loss of its two
    arguments and the arguments unchanged. -/
theorem run : θ_run defs (onTc (τ := τ) (main (F := Ideal))) ⟨m, fun _ => 0, ρ⟩ fun r => ∀ c : Dev nD,
      r.2.mem ((c.tc : Thread nD τ).loc main_v3) = (fun _ => loss (pred m c) (targ m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        (tail_eq m c _ fun h' j => out_eq m c h' j),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.Reference.lean ====
/-
  The reference program's result is the loss of its two arguments.

  The reference forms, entry by entry of the flat vectors, the squared error times the weight (the weight by two
  comparisons, an "or" and a select between the broadcast floats 2 and 1), sums all 2²⁴ entries from the initial value
  `0`, and divides by the float 2²⁴.  Dividing `0 + s` by 2²⁴ is multiplying `s` by 2⁻²⁴ on every extended real.
-/
import proofs.«103839_j15668040696555_1_alg».proof.Proof.Gen.ReferenceIdeal.Read
import proofs.«103839_j15668040696555_1_alg».proof.Proof.Spec
import Idealize.ShloMosaic.Lib.ValueIdx

noncomputable section

open Idealize.ShloMosaic Idealize.ShloMosaic.ValueIdx
open scoped BigOperators

namespace Cert.ReferenceIdeal.RefValue

open Cert.ReferenceIdeal Cert.ReferenceIdeal.Gen Cert.ReferenceIdeal.Read Cert.PrioriLoss

/-- A flat vector's index is its one coordinate. -/
def flat : S16777216.Idx ≃ Fin 16777216 where
  toFun i := i 0
  invFun k := ix1 k
  left_inv i := (eq_ix1 i).symm
  right_inv k := rfl

/-- Entry `i` of the product the reference sums is that entry's contribution. -/
theorem contribution (x0 x1 : (⟨S16777216, .f32⟩ : BufTy).Contents (Elt Ideal)) (i : S16777216.Idx) :
    val_main_v8 (F := Ideal) x0 x1 i = term (x0 i) (x1 i) := by
  simp only [val_main_v8_apply, val_main_v7_apply, val_main_v6_apply, val_main_v5_apply, val_main_v4_apply,
    val_main_v1_apply, val_main_v3_apply, val_main_v0_apply, val_main_v2_apply, val_main_call0_v0_apply,
    val_main_call0_v1_apply, val_main_cst_apply, val_main_cst_0_apply, val_main_cst_1_apply, val_main_cst_2_apply]
  rfl

/-- THE REFERENCE'S RESULT, at its one index: the loss of the two flat vectors. -/
theorem result_eq (x0 x1 : (⟨S16777216, .f32⟩ : BufTy).Contents (Elt Ideal)) (i : S_.Idx) :
    val_main_v10 (F := Ideal) x0 x1 i = loss (fun k => x0 (ix1 k)) (fun k => x1 (ix1 k)) := by
  rw [val_main_v10_apply, val_main_v9_apply]
  simp only [contribution]
  show Ideal.div (Ideal.ofBits .f32 0x00000000#32 + ∑ x, term (x0 x) (x1 x)) (Ideal.ofBits .f32 0x4B800000#32)
    = (∑ k : Fin 16777216, term (x0 (ix1 k)) (x1 (ix1 k))) * Ideal.ofBits .f32 0x33800000#32
  rw [div_eq_mul]
  refine congrArg (· * Ideal.ofBits .f32 0x33800000#32) ?_
  refine Fintype.sum_equiv flat _ _ fun x => ?_
  exact congrArg (fun y => term (x0 y) (x1 y)) (eq_ix1 x)

end Cert.ReferenceIdeal.RefValue

end
-- ==== Proof.lean ====
/-
  The certificate of a weighted mean-squared-error kernel against its reference.

  Both programs take two vectors `p`, `q` of 2²⁴ floats and return one float: the mean over the entries of
  `(p − q)² · w(p)`, where the weight `w(p)` is 2 when `p < 20` or `p > 80` and 1 otherwise.

  The kernel views each vector as 131072 rows of 128 lanes and walks them in 16 blocks of 8192 rows.  At each block it
  forms the weighted squared errors, sums each row over its lanes and then the rows, and adds the block's sum to a
  one-entry running total (zeroed at the first block); after the last block it writes the total times the float 2⁻²⁴.
  The reference sums all 2²⁴ weighted squared errors from 0 and divides by the float 2²⁴.

  Over the extended reals the two agree on every input: addition is commutative and associative, so the blocked sum
  (16 blocks × 8192 rows × 128 lanes, flat position `1048576·t + 128·r + l`) is the flat sum; and dividing by the nonzero
  real 2²⁴ is multiplying by 2⁻²⁴, at the infinities too.  No finiteness of the inputs is used.

  The modules: Spec (the loss as one function, and the one law), LibBlockSum (a sum taken block by block), Pieces (what
  each case of the loop body stores, as terms), Body (those terms at their one entry), Blocks (a block's entry as a flat
  position), Chain (the running total by induction on the grid point), KernelRun (the kernel's run with its result named),
  Reference (the reference's result).  The three frames are the programs' runs; the idealization rewrote nothing.
-/
import proofs.«103839_j15668040696555_1_alg».proof.Defs
import proofs.«103839_j15668040696555_1_alg».proof.Proof.Gen.Kernel
import proofs.«103839_j15668040696555_1_alg».proof.Proof.Gen.Kernel.Skeleton
import proofs.«103839_j15668040696555_1_alg».proof.Proof.Gen.Kernel.Launch
import proofs.«103839_j15668040696555_1_alg».proof.Proof.Gen.Kernel.Points
import proofs.«103839_j15668040696555_1_alg».proof.Proof.Gen.Kernel.Frame
import proofs.«103839_j15668040696555_1_alg».proof.Proof.Gen.KernelIdeal
import proofs.«103839_j15668040696555_1_alg».proof.Proof.Gen.KernelIdeal.Skeleton
import proofs.«103839_j15668040696555_1_alg».proof.Proof.Gen.KernelIdeal.Launch
import proofs.«103839_j15668040696555_1_alg».proof.Proof.Gen.KernelIdeal.Points
import proofs.«103839_j15668040696555_1_alg».proof.Proof.Gen.KernelIdeal.Frame
import proofs.«103839_j15668040696555_1_alg».proof.Proof.Gen.ReferenceIdeal
import proofs.«103839_j15668040696555_1_alg».proof.Proof.Gen.Pre_finite_inputs
import proofs.«103839_j15668040696555_1_alg».proof.Proof.Gen.ReferenceIdeal.Run
import proofs.«103839_j15668040696555_1_alg».proof.Proof.Gen.ReferenceIdeal.Read
import proofs.«103839_j15668040696555_1_alg».proof.Proof.KernelRun
import proofs.«103839_j15668040696555_1_alg».proof.Proof.Reference
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals, from memories that agree on the two arguments, the kernel ends at the loss of its
    arguments (the running total over sixteen blocks, times 2⁻²⁴) and the reference at the loss of its own (the flat sum
    divided by 2²⁴): the same function of the same vectors. -/
theorem algebraic : Cert.algebraic_KernelIdeal_ReferenceIdeal := by
  intro m ρ m' ρ' _ hagree
  refine ⟨fun c => (fun _ => Cert.PrioriLoss.loss (Cert.KernelIdeal.Chain.pred m c) (Cert.KernelIdeal.Chain.targ m c)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq]
  funext i
  rw [Cert.ReferenceIdeal.RefValue.result_eq, (hagree c).1, (hagree c).2]
  exact congrArg₂ Cert.PrioriLoss.loss (funext fun k => rfl) (funext fun k => rfl)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
